-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S200x10000 : Shape := ⟨2, ![200, 10000]⟩
abbrev S200x128 : Shape := ⟨2, ![200, 128]⟩
abbrev S10000x256 : Shape := ⟨2, ![10000, 256]⟩

abbrev nBuf : Space → Nat
  | .hbm => 9
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x256, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S128x256, .f32⟩
  | .local _ .vmem, ⟨2, _⟩ => ⟨S200x10000, .f32⟩
  | .local _ .vmem, ⟨3, _⟩ => ⟨S200x10000, .f32⟩
  | .local _ .vmem, ⟨4, _⟩ => ⟨S200x10000, .f32⟩
  | .local _ .vmem, ⟨5, _⟩ => ⟨S200x10000, .f32⟩
  | .local _ .vmem, ⟨6, _⟩ => ⟨S1x128, .f32⟩
  | .local _ .vmem, ⟨7, _⟩ => ⟨S200x128, .f32⟩
  | .local _ .vmem, ⟨8, _⟩ => ⟨S200x128, .f32⟩
  | .local _ .vmem, ⟨9, _⟩ => ⟨S10000x256, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  concatenates_S128x128_S128x128_S128x256_d1 : Shape.Concatenates [S128x128, S128x128] S128x256 1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S10000x256_S10000x128_0_0 : ∀ a, (![0, 0] : Fin 2 → Nat) a + S10000x128.size a ≤ S10000x256.size a
  inb_S10000x256_S10000x128_0_128 : ∀ a, (![0, 128] : Fin 2 → Nat) a + S10000x128.size a ≤ S10000x256.size a
  inb_S200x10000_S200x10000_0_0 : ∀ a, (![0, 0] : Fin 2 → Nat) a + S200x10000.size a ≤ S200x10000.size a
  h_S200x10000 : 0 < S200x10000.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x128_S200x128_0_0 : ∀ a, (![0, 0] : Fin 2 → Nat) a + S200x128.size a ≤ S200x128.size a
  h_S200x128 : 0 < S200x128.numel
  dot_S10000x128_S128x256_S10000x256_1_0_0_1_n_n_wf : DotDims.WF S10000x128 S128x256 S10000x256 [1] [0] [0] [1] [] []
  dot_S200x10000_S10000x128_S200x128_1_0_0_1_n_n_wf : DotDims.WF S200x10000 S10000x128 S200x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x10000.size a ≤ S10000x10000.size a
  hwx0_2 : ∀ i : grid0.Coords, EltTy.bits .f32 = 32 ∨ (Rect.block (s := S10000x10000) S200x10000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x10000.size a ≤ S10000x10000.size a
  hwx0_3 : ∀ i : grid0.Coords, EltTy.bits .f32 = 32 ∨ (Rect.block (s := S10000x10000) S200x10000.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x128.size a ≤ S10000x128.size a
  hwx0_5 : ∀ i : grid0.Coords, EltTy.bits .f32 = 32 ∨ (Rect.block (s := S10000x128) S200x128.size (cc0_transform_5 i) (hinb0_5 i)).WholeWords (EltTy.packing .f32)

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S200x10000.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S200x10000.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 14
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S10000x128, .f32⟩
  | .hbm, ⟨9, _⟩ => ⟨S10000x128, .f32⟩
  | .hbm, ⟨10, _⟩ => ⟨S10000x128, .f32⟩
  | .hbm, ⟨11, _⟩ => ⟨S1x128, .f32⟩
  | .hbm, ⟨12, _⟩ => ⟨S10000x128, .f32⟩
  | .hbm, ⟨13, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.Spec.lean ====
/-
  The specification of the two-adjacency graph convolution, as ONE function of the six argument arrays over the
  extended reals, index by index:

      out[i, j] = (∑ₖ a₁[i, k] · (x·w₁)[k, j]  +  ∑ₖ a₂[i, k] · (x·w₂)[k, j])  +  b[j],
      (x·w)[k, j] = ∑ₗ x[k, l] · w[l, j].

  Both programs compute exactly these sums in exactly this grouping of the two additions, so no law of the extended
  reals beyond the definitions is needed: the precondition is never opened.
-/
import Idealize.ShloMosaic.PureOps.Ideal
import Idealize.ShloMosaic.Lib.ValueIdx

noncomputable section

namespace Cert.GraphConv

open Idealize.ShloMosaic Idealize.ShloMosaic.ValueIdx

/-- The shapes of the problem, literally. -/
abbrev SX : Shape := ⟨2, ![10000, 128]⟩
abbrev SA : Shape := ⟨2, ![10000, 10000]⟩
abbrev SW : Shape := ⟨2, ![128, 128]⟩
abbrev SB : Shape := ⟨1, ![128]⟩

/-- One support matrix at an entry: row `k` of the features against column `j` of a weight. -/
def support (x : SX.Idx → EReal) (w : SW.Idx → EReal) (k : Fin 10000) (j : Fin 128) : EReal :=
  ∑ l : Fin 128, x (ix2 k l) * w (ix2 l j)

/-- One propagated term at an entry: row `i` of an adjacency against column `j` of its support matrix. -/
def propagate (a : SA.Idx → EReal) (x : SX.Idx → EReal) (w : SW.Idx → EReal) (i : Fin 10000) (j : Fin 128) : EReal :=
  ∑ k : Fin 10000, a (ix2 i k) * support x w k j

/-- The layer's output at coordinates `(i, j)`. -/
def outAt (x : SX.Idx → EReal) (a1 a2 : SA.Idx → EReal) (w1 w2 : SW.Idx → EReal) (b : SB.Idx → EReal)
    (i : Fin 10000) (j : Fin 128) : EReal :=
  (propagate a1 x w1 i j + propagate a2 x w2 i j) + b (ix1 j)

/-- The layer's output array. -/
def out (x : SX.Idx → EReal) (a1 a2 : SA.Idx → EReal) (w1 w2 : SW.Idx → EReal) (b : SB.Idx → EReal) : SX.Idx → EReal :=
  fun i => outAt x a1 a2 w1 w2 b (i 0) (i 1)

theorem out_apply (x : SX.Idx → EReal) (a1 a2 : SA.Idx → EReal) (w1 w2 : SW.Idx → EReal) (b : SB.Idx → EReal)
    (i : Fin 10000) (j : Fin 128) : out x a1 a2 w1 w2 b (ix2 i j) = outAt x a1 a2 w1 w2 b i j := rfl

end Cert.GraphConv

end
-- ==== Proof.RefIsSpec.lean ====
/-
  The reference program computes the specification.

  Its eight host operations are: the two support matrices x·w₁ and x·w₂ (a product each), the two propagated terms
  a₁·(x·w₁) and a₂·(x·w₂) (a product each), their sum, the bias spread over the rows (two broadcasts), and the final
  sum. Read at an output index (i, j), each product is the sum over its one contracted axis, the broadcast bias is
  b[j], and the two additions group exactly as the specification's: (a₁-term + a₂-term) + b[j].
-/
import proofs.«116179_g72980084294335_cont_9to1_m_814_5_alg».proof.Proof.Gen.ReferenceIdeal.Read
import proofs.«116179_g72980084294335_cont_9to1_m_814_5_alg».proof.Proof.Spec

noncomputable section

namespace Cert.GraphConv.Reference

open Cert.ReferenceIdeal Cert.ReferenceIdeal.Read Idealize.ShloMosaic Idealize.ShloMosaic.ValueIdx

/-- Row `p` of an adjacency at column `k`. -/
theorem adj_index (p : Fin 10000) (q : Fin 128) (k : Fin 10000) : lidx_main_v1 (ix2 p q) k = ix2 p k :=
  funext fun a => match a with | ⟨0, _⟩ => rfl | ⟨1, _⟩ => rfl
theorem adj_index' (p : Fin 10000) (q : Fin 128) (k : Fin 10000) : lidx_main_v3 (ix2 p q) k = ix2 p k :=
  funext fun a => match a with | ⟨0, _⟩ => rfl | ⟨1, _⟩ => rfl

/-- Row `k` of a support matrix at column `q`. -/
theorem sup_index (p : Fin 10000) (q : Fin 128) (k : Fin 10000) : ridx_main_v1 (ix2 p q) k = ix2 k q :=
  funext fun a => match a with | ⟨0, _⟩ => rfl | ⟨1, _⟩ => rfl
theorem sup_index' (p : Fin 10000) (q : Fin 128) (k : Fin 10000) : ridx_main_v3 (ix2 p q) k = ix2 k q :=
  funext fun a => match a with | ⟨0, _⟩ => rfl | ⟨1, _⟩ => rfl

/-- Inside a support entry (k, q): the feature row `k` at `l`, the weight row `l` at `q`. -/
theorem feat_index (k : Fin 10000) (q l : Fin 128) : lidx_main_v0 (ix2 k q) l = ix2 k l :=
  funext fun a => match a with | ⟨0, _⟩ => rfl | ⟨1, _⟩ => rfl
theorem feat_index' (k : Fin 10000) (q l : Fin 128) : lidx_main_v2 (ix2 k q) l = ix2 k l :=
  funext fun a => match a with | ⟨0, _⟩ => rfl | ⟨1, _⟩ => rfl
theorem wt_index (k : Fin 10000) (q l : Fin 128) : ridx_main_v0 (ix2 k q) l = ix2 l q :=
  funext fun a => match a with | ⟨0, _⟩ => rfl | ⟨1, _⟩ => rfl
theorem wt_index' (k : Fin 10000) (q l : Fin 128) : ridx_main_v2 (ix2 k q) l = ix2 l q :=
  funext fun a => match a with | ⟨0, _⟩ => rfl | ⟨1, _⟩ => rfl

/-- The bias entry the two broadcasts read at output entry (p, q). -/
theorem bias_index (p : Fin 10000) (q : Fin 128) : idx_main_v5 (idx_main_v6 (ix2 p q)) = ix1 q :=
  funext fun a => match a with | ⟨0, _⟩ => rfl

/-- The reference's result array, as a function of the argument arrays, is the specification's output. -/
theorem result_eq (x : (⟨S10000x128, .f32⟩ : BufTy).Contents (Elt Ideal))
    (a1 a2 : (⟨S10000x10000, .f32⟩ : BufTy).Contents (Elt Ideal))
    (w1 w2 : (⟨S128x128, .f32⟩ : BufTy).Contents (Elt Ideal))
    (b : (⟨S128, .f32⟩ : BufTy).Contents (Elt Ideal)) :
    val_main_v7 (F := Ideal) x a1 a2 w1 w2 b = Cert.GraphConv.out x a1 a2 w1 w2 b := by
  funext i
  obtain ⟨p, q, rfl⟩ : ∃ (p : Fin 10000) (q : Fin 128), i = ix2 p q := ⟨i 0, i 1, eq_ix2 i⟩
  rw [val_main_v7_apply, val_main_v4_apply, val_main_v1_apply, val_main_v3_apply, val_main_v6_apply, val_main_v5_apply]
  simp only [adj_index, adj_index', sup_index, sup_index', bias_index, val_main_v0_apply, val_main_v2_apply,
    feat_index, feat_index', wt_index, wt_index', Ideal.addf_def]
  rfl

end Cert.GraphConv.Reference

end
-- ==== Proof.Pieces.lean ====
/-
  What one run of the kernel body leaves behind, as values of what it loaded.

  The body keeps the support matrix S = x · [w₁ | w₂] (10000 × 256) in a scratch buffer: the first grid point computes
  and stores it whole; every point then reads its left half S[:, 0:128] and its right half S[:, 128:256] back and
  stores the output block  a₁blk · S_left + a₂blk · S_right + bias.  So

    * the first point leaves S itself in the scratch, and in the output block the block formula over the two halves
      of the S it has just stored;
    * a later point leaves the scratch as it found it, and in the output block the same formula over the two halves
      of the scratch it found.
-/
import proofs.«116179_g72980084294335_cont_9to1_m_814_5_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The left half of the scratch: columns 0 … 127. -/
abbrev rLeft : Rect S10000x256 := Rect.unit (s := S10000x256) ![0, 0] S10000x128.size inb_S10000x256_S10000x128_0_0
/-- The right half of the scratch: columns 128 … 255. -/
abbrev rRight : Rect S10000x256 := Rect.unit (s := S10000x256) ![0, 128] S10000x128.size inb_S10000x256_S10000x128_0_128

/-- The output block as a function of the scratch contents `s` and the three loaded blocks. -/
abbrev blockOf (s : Vec F S10000x256 .f32) (x2 x3 : Vec F S200x10000 .f32) (x4 : Vec F S1x128 .f32) : Vec F S200x128 .f32 :=
  k0_pay2 (View.ld s rLeft) (View.ld s rRight) x2 x3 x4

/-- The first point leaves the support matrix in the scratch. -/
theorem scratch_first (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S10000x256 .f32) (harg7 : arg7.IsWhole) (hc0 : cond0_0 i)
    (x0 : Vec F S10000x128 .f32) (x1 : Vec F S128x256 .f32) (x2 : Vec F S200x10000 .f32) (x3 : Vec F S200x10000 .f32) (x4 : Vec F S1x128 .f32) :
    sout0_A_0 c i arg1 harg1 arg2 harg2 arg3 harg3 arg4 harg4 arg5 harg5 arg6 harg6 arg7 harg7 hc0 x0 x1 x2 x3 x4 = k0_pay1 x0 x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, View.ld_unit_zero (S := S10000x128) hz,
    View.ld_unit_zero (S := S128x256) hz]

/-- A load, through any rectangle, of what ONE whole-scratch store left reads the stored value there. -/
theorem load_after_whole_store {sg : RefSig} {κ : Kind} {sp : Space} (v : View sg κ sp S10000x256 .f32)
    (w : Vec F S10000x256 .f32) (r : Rect S10000x256) :
    v.readCov [(⟨Rect.unit ![0, 0] S10000x256.size inb_S10000x256_S10000x256_0_0, w⟩ : View.Piece (Elt F) S10000x256 .f32)] r.toLoadRect
      = View.ld w r := by
  rw [View.readCov_eq_canon_ld _ _ _ (fun y => ⟨_, List.mem_singleton_self _, View.mem_set_unit_zero hz inb_S10000x256_S10000x256_0_0 y⟩),
    View.canon_unit_zero hz]

/-- The first point leaves, in the output block, the block formula over the support matrix it has just stored. -/
theorem block_first (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S10000x256 .f32) (harg7 : arg7.IsWhole) (hc0 : cond0_0 i)
    (x0 : Vec F S10000x128 .f32) (x1 : Vec F S128x256 .f32) (x2 : Vec F S200x10000 .f32) (x3 : Vec F S200x10000 .f32) (x4 : Vec F S1x128 .f32) :
    out0_A_5 c i arg1 harg1 arg2 harg2 arg3 harg3 arg4 harg4 arg5 harg5 arg6 harg6 arg7 harg7 hc0 x0 x1 x2 x3 x4 = blockOf (k0_pay1 x0 x1) x2 x3 x4 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, harg3.read_unread,
    harg4.read_unread, harg5.read_unread, View.ld_unit_zero (S := S10000x128) hz, View.ld_unit_zero (S := S128x256) hz,
    View.ld_unit_zero (S := S200x10000) hz, View.ld_unit_zero (S := S1x128) hz]
  exact congrArg₂ (fun sL sR => k0_pay2 sL sR x2 x3 x4)
    (load_after_whole_store arg7.view (k0_pay1 x0 x1) rLeft) (load_after_whole_store arg7.view (k0_pay1 x0 x1) rRight)

/-- A later point leaves, in the output block, the block formula over the scratch it found. -/
theorem block_later (c : Dev nD) (i : grid0.Coords) (arg1 : Memref sig .tc .vmem S10000x128 .f32) (harg1 : arg1.IsWhole) (arg2 : Memref sig .tc .vmem S128x256 .f32) (harg2 : arg2.IsWhole) (arg3 : Memref sig .tc .vmem S200x10000 .f32) (harg3 : arg3.IsWhole) (arg4 : Memref sig .tc .vmem S200x10000 .f32) (harg4 : arg4.IsWhole) (arg5 : Memref sig .tc .vmem S1x128 .f32) (harg5 : arg5.IsWhole) (arg6 : Memref sig .tc .vmem S200x128 .f32) (harg6 : arg6.IsWhole) (arg7 : Memref sig .tc .vmem S10000x256 .f32) (harg7 : arg7.IsWhole) (hc0 : ¬cond0_0 i)
    (x0 : Vec F S10000x128 .f32) (x1 : Vec F S128x256 .f32) (x2 : Vec F S200x10000 .f32) (x3 : Vec F S200x10000 .f32) (x4 : Vec F S1x128 .f32) (xs0 : Vec F S10000x256 .f32) :
    out0_B_5 c i arg1 harg1 arg2 harg2 arg3 harg3 arg4 harg4 arg5 harg5 arg6 harg6 arg7 harg7 hc0 x0 x1 x2 x3 x4 xs0 = blockOf xs0 x2 x3 x4 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [View.canon_unit_zero hz]
  simp only [View.readAt_eq_ld, harg3.read_unread, harg4.read_unread, harg5.read_unread, harg7.read_unread,
    View.ld_unit_zero (S := S200x10000) hz, View.ld_unit_zero (S := S1x128) hz]

end Cert.KernelIdeal.Pieces

end
-- ==== Proof.Carried.lean ====
/-
  The scratch across the grid.

  Only the first of the 50 grid points stores into the scratch, and it stores the support matrix
  S = x · [w₁ | w₂] computed from the whole feature array and the whole joined weight (both windows are the whole
  array at every point). Every later point leaves the scratch as it found it. So, by induction on the point, after
  EVERY point the scratch holds that same S; and therefore every point — the first, which reads back what it has just
  stored, and the later ones, which read what they found — stores the same block formula over S and its own row
  blocks of the two adjacencies.
-/
import proofs.«116179_g72980084294335_cont_9to1_m_814_5_alg».proof.Proof.Pieces

set_option maxRecDepth 16384

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

theorem N_pos : 0 < cfg0.N := by rw [show cfg0.N = 50 from N_0]; decide

/-- The first grid point. -/
abbrev t0 : Fin cfg0.N := ⟨0, N_pos⟩

/-- The blocks the body loads, at their literal types: the whole feature array and the whole joined weight (as the
    first point sees them), and point `t`'s row blocks of the two adjacencies and the bias row. -/
abbrev xblk (c : Dev nD) : Vec F S10000x128 .f32 := iblk m c 0 t0
abbrev wblk (c : Dev nD) : Vec F S128x256 .f32 := iblk m c 1 t0
abbrev a1blk (c : Dev nD) (t : Fin cfg0.N) : Vec F S200x10000 .f32 := iblk m c 2 t
abbrev a2blk (c : Dev nD) (t : Fin cfg0.N) : Vec F S200x10000 .f32 := iblk m c 3 t
abbrev bblk (c : Dev nD) (t : Fin cfg0.N) : Vec F S1x128 .f32 := iblk m c 4 t

/-- The support matrix, as the first point computes it. -/
abbrev sup (c : Dev nD) : Vec F S10000x256 .f32 := k0_pay1 (xblk m c) (wblk m c)

/-- After every point the scratch holds the support matrix. -/
theorem scratch_eq (c : Dev nD) : ∀ (n : ℕ) (h : n < cfg0.N), (outsAt0 m c n h).2 = sup m c
  | 0, h => by
    rw [outsAt0_A m c ⟨0, h⟩ rfl]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 50 := N_0
    have hB : ¬(⟨n + 1, h⟩ : Fin cfg0.N).val % 50 = 0 := by dsimp only; omega
    rw [outsAt0_B m c ⟨n + 1, h⟩ hB]
    dsimp only
    unfold sout0_B_0
    exact scratch_eq c n _

/-- Every point leaves, in the output's staging buffer, the block formula over the support matrix. -/
theorem block_eq (c : Dev nD) (t : Fin cfg0.N) :
    (outsAt0 m c t.val t.isLt).1 = blockOf (sup m c) (a1blk m c t) (a2blk m c t) (bblk m c t) := by
  have hN : cfg0.N = 50 := N_0
  by_cases h0 : t.val % 50 = 0
  · have ht : t = t0 := Fin.ext (by have := t.isLt; show t.val = 0; omega)
    subst ht
    rw [outsAt0_A m c t0 h0]
    dsimp only
    exact block_first c (grid0.coords t0) (ms0_0 t0) (hs0_0 t0) (ms0_1 t0) (hs0_1 t0) (ms0_2 t0) (hs0_2 t0) (ms0_3 t0) (hs0_3 t0) (ms0_4 t0) (hs0_4 t0) (ms0_5 t0) (hs0_5 t0) scM0_0 (Memref.isWhole_whole _) ((hcond0_0 t0).mpr h0) (iblk m c 0 t0) (iblk m c 1 t0) (iblk m c 2 t0) (iblk m c 3 t0) (iblk m c 4 t0)
  · rw [outsAt0_B m c t h0]
    dsimp only
    refine (block_later c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t)
      (outsAt0 m c (t.val - 1) (Nat.lt_of_le_of_lt (Nat.sub_le _ _) t.isLt)).2).trans ?_
    exact congrArg (fun s => blockOf s (a1blk m c t) (a2blk m c t) (bblk m c t)) (scratch_eq m c (t.val - 1) _)

end Cert.KernelIdeal.Carried

end
-- ==== Proof.Reads.lean ====
/-
  The blocks the body loads, read at an entry, are entries of the argument arrays.

    * The feature window and the joined-weight window are the whole array at every grid point.
    * Point t's window on an adjacency is its rows 200·t … 200·t + 199, all 10000 columns.
    * The joined weight, made before the call by concatenating w₁ and w₂ along the columns, reads w₁ in columns
      0 … 127 and w₂ in columns 128 … 255.
    * The bias window is the bias re-shaped to one row: entry (0, q) is b[q].
    * Point t's output block sits at rows 200·t … 200·t + 199 of the result.
-/
import proofs.«116179_g72980084294335_cont_9to1_m_814_5_alg».proof.Proof.Carried
import Idealize.ShloMosaic.Lib.StableHlo.Run
import Idealize.ShloMosaic.Lib.ValueIdx
import Idealize.ShloMosaic.Lib.Pipeline.Value

set_option maxRecDepth 16384

noncomputable section

open Idealize.ShloMosaic Idealize.ShloMosaic.TcCoe Idealize.SL.Sem

namespace Cert.KernelIdeal.Reads

open Cert.KernelIdeal Cert.KernelIdeal.Gen Cert.KernelIdeal.Carried Idealize.ShloMosaic.ValueIdx

variable {F : FTy → Type} [FloatOps F]
variable (m : (ℓ : Loc nD τ sig) → Buf (Elt F) ℓ)

/-- The six argument arrays as launched, at their literal types. -/
abbrev xarr (c : Dev nD) : Vec F S10000x128 .f32 := m ((c : Thread nD τ).loc main_arg0)
abbrev a1arr (c : Dev nD) : Vec F S10000x10000 .f32 := m ((c : Thread nD τ).loc main_arg1)
abbrev a2arr (c : Dev nD) : Vec F S10000x10000 .f32 := m ((c : Thread nD τ).loc main_arg2)
abbrev w1arr (c : Dev nD) : Vec F S128x128 .f32 := m ((c : Thread nD τ).loc main_arg3)
abbrev w2arr (c : Dev nD) : Vec F S128x128 .f32 := m ((c : Thread nD τ).loc main_arg4)
abbrev barr (c : Dev nD) : Vec F S128 .f32 := m ((c : Thread nD τ).loc main_arg5)

/-- The printed index maps over the grid: windows 0, 1 and 4 stay at block (0, 0); windows 2, 3 and 5 are at block
    row `t`, block column 0. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `200·t + p` of a 10000-row array, for a row `p` of point `t`'s block. -/
abbrev rowOf (t : Fin cfg0.N) (p : Fin 200) : Fin 10000 :=
  ⟨200 * t.val + p.val, by have := t.isLt; have : cfg0.N = 50 := N_0; have := p.isLt; omega⟩

/-- The feature window is the feature array. -/
theorem xblk_apply (c : Dev nD) (k : Fin 10000) (l : Fin 128) : xblk m c (ix2 k l) = xarr m c (ix2 k l) := by
  obtain ⟨e0, e1, -⟩ := idx_facts t0
  show V m c main_arg0 (((cfg0.win 0).blk t0).view.emb (ix2 k l)) = _
  rw [V_main_arg0]
  refine congrArg (m ((c : Thread nD τ).loc main_arg0)) ?_
  funext a; apply Fin.ext
  match a with
  | ⟨0, _⟩ => show win0_0.index t0 (0 : Fin 2) * 10000 + 1 * k.val = k.val; omega
  | ⟨1, _⟩ => show win0_0.index t0 (1 : Fin 2) * 128 + 1 * l.val = l.val; omega

/-- Point `t`'s window on the first adjacency. -/
theorem a1blk_apply (c : Dev nD) (t : Fin cfg0.N) (p : Fin 200) (k : Fin 10000) :
    a1blk m c t (ix2 p k) = a1arr m c (ix2 (rowOf t p) k) := by
  obtain ⟨-, -, -, -, e0, e1, -⟩ := idx_facts t
  show V m c main_arg1 (((cfg0.win 2).blk t).view.emb (ix2 p k)) = _
  rw [V_main_arg1]
  refine congrArg (m ((c : Thread nD τ).loc main_arg1)) ?_
  funext a; apply Fin.ext
  match a with
  | ⟨0, _⟩ => show win0_2.index t (0 : Fin 2) * 200 + 1 * p.val = 200 * t.val + p.val; omega
  | ⟨1, _⟩ => show win0_2.index t (1 : Fin 2) * 10000 + 1 * k.val = k.val; omega

/-- Point `t`'s window on the second adjacency. -/
theorem a2blk_apply (c : Dev nD) (t : Fin cfg0.N) (p : Fin 200) (k : Fin 10000) :
    a2blk m c t (ix2 p k) = a2arr m c (ix2 (rowOf t p) k) := by
  obtain ⟨-, -, -, -, -, -, e0, e1, -⟩ := idx_facts t
  show V m c main_arg2 (((cfg0.win 3).blk t).view.emb (ix2 p k)) = _
  rw [V_main_arg2]
  refine congrArg (m ((c : Thread nD τ).loc main_arg2)) ?_
  funext a; apply Fin.ext
  match a with
  | ⟨0, _⟩ => show win0_3.index t (0 : Fin 2) * 200 + 1 * p.val = 200 * t.val + p.val; omega
  | ⟨1, _⟩ => show win0_3.index t (1 : Fin 2) * 10000 + 1 * k.val = k.val; omega

/-- The joined weight the region finds: w₁ and w₂ side by side. -/
theorem wcat_eq (c : Dev nD) : (V m c main_v0 : S128x256.Idx → Elt F .f32)
    = concatenate S128x256 1 [⟨S128x128, w1arr m c⟩, ⟨S128x128, w2arr m c⟩] concatenates_S128x128_S128x128_S128x256_d1 := by
  dsimp only [V, hostOps0]; after_results

/-- The bias row the region finds: the bias re-shaped to [1, 128]. -/
theorem brow_eq (c : Dev nD) : (V m c main_v1 : S1x128.Idx → Elt F .f32)
    = shapeCast S1x128 (barr m c) shapeCasts_S128_S1x128 := by
  dsimp only [V, hostOps0]; after_results; rfl

/-- The joined-weight window at an entry is the joined weight there. -/
theorem wblk_eq (c : Dev nD) (l : Fin 128) (cc : Fin 256) :
    wblk m c (ix2 l cc) = (V m c main_v0 : S128x256.Idx → Elt F .f32) (ix2 l cc) := by
  obtain ⟨-, -, e0, e1, -⟩ := idx_facts t0
  show V m c main_v0 (((cfg0.win 1).blk t0).view.emb (ix2 l cc)) = _
  refine congrArg (V m c main_v0) ?_
  funext a; apply Fin.ext
  match a with
  | ⟨0, _⟩ => show win0_1.index t0 (0 : Fin 2) * 128 + 1 * l.val = l.val; omega
  | ⟨1, _⟩ => show win0_1.index t0 (1 : Fin 2) * 256 + 1 * cc.val = cc.val; omega

/-- Columns 0 … 127 of the joined weight are w₁. -/
theorem wblk_left (c : Dev nD) (l q : Fin 128) :
    wblk m c (ix2 l (⟨q.val, by have := q.isLt; omega⟩ : Fin 256)) = w1arr m c (ix2 l q) := by
  rw [wblk_eq, wcat_eq]
  exact concatenate_pair_apply_left (1 : Fin 2) (w1arr m c) (w2arr m c) concatenates_S128x128_S128x128_S128x256_d1
    (ix2 l (⟨q.val, by have := q.isLt; omega⟩ : Fin 256)) rfl (ix2 l q) (fun b => match b with | ⟨0, _⟩ => rfl | ⟨1, _⟩ => rfl)

/-- Columns 128 … 255 of the joined weight are w₂. -/
theorem wblk_right (c : Dev nD) (l q : Fin 128) :
    wblk m c (ix2 l (⟨128 + q.val, by have := q.isLt; omega⟩ : Fin 256)) = w2arr m c (ix2 l q) := by
  rw [wblk_eq, wcat_eq]
  exact concatenate_pair_apply_right (1 : Fin 2) (w1arr m c) (w2arr m c) concatenates_S128x128_S128x128_S128x256_d1
    (ix2 l (⟨128 + q.val, by have := q.isLt; omega⟩ : Fin 256)) rfl rfl (ix2 l q)
    (fun b => match b with | ⟨0, _⟩ => fun _ => rfl | ⟨1, _⟩ => fun h => absurd rfl h)
    (by show q.val + 128 = 128 + q.val; omega)

/-- The bias window at (0, q) is b[q]. -/
theorem bblk_apply (c : Dev nD) (t : Fin cfg0.N) (q : Fin 128) :
    bblk m c t (ix2 (0 : Fin 1) q) = barr m c (ix1 q) := by
  obtain ⟨-, -, -, -, -, -, -, -, e0, e1, -⟩ := idx_facts t
  have hemb : ((cfg0.win 4).blk t).view.emb (ix2 (0 : Fin 1) q) = (ix2 (0 : Fin 1) q : S1x128.Idx) := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  show V m c main_v1 (((cfg0.win 4).blk t).view.emb (ix2 (0 : Fin 1) q)) = _
  rw [hemb, brow_eq]
  exact shapeCast_apply (barr m c) shapeCasts_S128_S1x128 (ix2 (0 : Fin 1) q) (ix1 q)
    (by rw [Shape.rowMajor_val_one, Shape.rowMajor_val_two]; show q.val = 0 * 128 + q.val; omega)

/-- Where entry (p, q) of point `t`'s output block sits in the result array. -/
theorem out_emb (t : Fin cfg0.N) (p : Fin 200) (q : Fin 128) :
    ((cfg0.win 5).blk t).view.emb (ix2 p q) = (ix2 (rowOf t p) q : S10000x128.Idx) := by
  obtain ⟨-, -, -, -, -, -, -, -, -, -, e0, e1⟩ := idx_facts t
  funext a; apply Fin.ext
  match a with
  | ⟨0, _⟩ => show win0_5.index t (0 : Fin 2) * 200 + 1 * p.val = 200 * t.val + p.val; omega
  | ⟨1, _⟩ => show win0_5.index t (1 : Fin 2) * 128 + 1 * q.val = q.val; omega

end Cert.KernelIdeal.Reads

end
-- ==== Proof.Payload.lean ====
/-
  The body's two stored values, read at an entry, over the extended reals.

    * The support store: (x · wcat)[k, c] = ∑ₗ x[k, l] · wcat[l, c]   (a product into a zero accumulator is the bare sum).
    * The output store, from the two halves sL, sR of the scratch and the three loaded blocks:
        blk[p, q] = (∑ₖ a₁blk[p, k] · sL[k, q]  +  ∑ₖ a₂blk[p, k] · sR[k, q])  +  bias[0, q].
      The bias row is spread over the 200 rows of the block, so row p reads bias[0, q].

  Each product's contraction index is its one contracted coordinate; the sums are re-indexed along that bijection.
-/
import proofs.«116179_g72980084294335_cont_9to1_m_814_5_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-! ## The support product: [10000,128] × [128,256] -/

theorem sup_lhs_0 (i : S10000x256.Idx) (q : dot_S10000x128_S128x256_S10000x256_1_0_0_1_n_n.contr.Idx) :
    (dot_S10000x128_S128x256_S10000x256_1_0_0_1_n_n.lhsIdx i q 0).val = (i 0).val := by
  unfold DotDims.lhsIdx
  rw [dif_neg (show ¬(0 : Fin S10000x128.rank) ∈ dot_S10000x128_S128x256_S10000x256_1_0_0_1_n_n.lhsBatch by decide), dif_pos (show (0 : Fin S10000x128.rank) ∈ dot_S10000x128_S128x256_S10000x256_1_0_0_1_n_n.lhsNonContracting by decide)]
  rfl
theorem sup_lhs_1 (i : S10000x256.Idx) (q : dot_S10000x128_S128x256_S10000x256_1_0_0_1_n_n.contr.Idx) :
    (dot_S10000x128_S128x256_S10000x256_1_0_0_1_n_n.lhsIdx i q 1).val = (q ⟨0, by decide⟩).val :=
  dot_S10000x128_S128x256_S10000x256_1_0_0_1_n_n.lhsIdx_val_of_single rfl i q
theorem sup_rhs_0 (i : S10000x256.Idx) (q : dot_S10000x128_S128x256_S10000x256_1_0_0_1_n_n.contr.Idx) :
    (dot_S10000x128_S128x256_S10000x256_1_0_0_1_n_n.rhsIdx i q 0).val = (q ⟨0, by decide⟩).val :=
  dot_S10000x128_S128x256_S10000x256_1_0_0_1_n_n.rhsIdx_val_of_single rfl i q
theorem sup_rhs_1 (i : S10000x256.Idx) (q : dot_S10000x128_S128x256_S10000x256_1_0_0_1_n_n.contr.Idx) :
    (dot_S10000x128_S128x256_S10000x256_1_0_0_1_n_n.rhsIdx i q 1).val = (i 1).val := by
  unfold DotDims.rhsIdx
  rw [dif_neg (show ¬(1 : Fin S128x256.rank) ∈ dot_S10000x128_S128x256_S10000x256_1_0_0_1_n_n.rhsBatch by decide), dif_pos (show (1 : Fin S128x256.rank) ∈ dot_S10000x128_S128x256_S10000x256_1_0_0_1_n_n.rhsNonContracting by decide)]
  rfl

/-- The product of the features and the joined weights at entry (k, c). -/
theorem support_matmul_apply (x : FVec Ideal S10000x128 .f32) (w : FVec Ideal S128x256 .f32) (k : Fin 10000) (c : Fin 256) :
    matmul dot_S10000x128_S128x256_S10000x256_1_0_0_1_n_n none x w (constant S10000x256 .f32 0x00000000#32) (ix2 k c)
      = ∑ l : Fin 128, x (ix2 k l) * w (ix2 l c) := by
  simp only [matmul]
  rw [Ideal.matmul_constant_zero_apply, ← Equiv.sum_comp (contrEquiv1 dot_S10000x128_S128x256_S10000x256_1_0_0_1_n_n 128 rfl rfl).symm]
  refine Finset.sum_congr rfl fun l _ => ?_
  have hl := contrEquiv1_symm_val dot_S10000x128_S128x256_S10000x256_1_0_0_1_n_n 128 rfl rfl l
  have el : dot_S10000x128_S128x256_S10000x256_1_0_0_1_n_n.lhsIdx (ix2 k c) ((contrEquiv1 dot_S10000x128_S128x256_S10000x256_1_0_0_1_n_n 128 rfl rfl).symm l) = ix2 k l := funext fun a => Fin.ext (by
    match a with
    | ⟨0, _⟩ => exact sup_lhs_0 _ _
    | ⟨1, _⟩ => exact (sup_lhs_1 _ _).trans hl)
  have er : dot_S10000x128_S128x256_S10000x256_1_0_0_1_n_n.rhsIdx (ix2 k c) ((contrEquiv1 dot_S10000x128_S128x256_S10000x256_1_0_0_1_n_n 128 rfl rfl).symm l) = ix2 l c := funext fun a => Fin.ext (by
    match a with
    | ⟨0, _⟩ => exact (sup_rhs_0 _ _).trans hl
    | ⟨1, _⟩ => exact sup_rhs_1 _ _)
  rw [el, er]

/-- The support store's value at entry (k, c). -/
theorem support_apply (x : Vec Ideal S10000x128 .f32) (w : Vec Ideal S128x256 .f32) (k : Fin 10000) (c : Fin 256) :
    k0_pay1 (F := Ideal) x w (ix2 k c) = ∑ l : Fin 128, x (ix2 k l) * w (ix2 l c) := by
  unfold k0_pay1
  rw [shapeCast_self, shapeCast_self]
  exact support_matmul_apply x w k c

/-! ## The propagation product: [200,10000] × [10000,128] -/

theorem prop_lhs_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
theorem prop_lhs_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
theorem prop_rhs_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
theorem prop_rhs_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-- A 200-row block of an adjacency against a support half, at entry (p, q). -/
theorem prop_matmul_apply (a : FVec Ideal S200x10000 .f32) (s : FVec Ideal S10000x128 .f32) (p : Fin 200) (q : Fin 128) :
    matmul dot_S200x10000_S10000x128_S200x128_1_0_0_1_n_n none a s (constant S200x128 .f32 0x00000000#32) (ix2 p q)
      = ∑ k : Fin 10000, a (ix2 p k) * s (ix2 k q) := by
  simp only [matmul]
  rw [Ideal.matmul_constant_zero_apply, ← Equiv.sum_comp (contrEquiv1 dot_S200x10000_S10000x128_S200x128_1_0_0_1_n_n 10000 rfl rfl).symm]
  refine Finset.sum_congr rfl fun k _ => ?_
  have hk := contrEquiv1_symm_val dot_S200x10000_S10000x128_S200x128_1_0_0_1_n_n 10000 rfl rfl k
  have el : dot_S200x10000_S10000x128_S200x128_1_0_0_1_n_n.lhsIdx (ix2 p q) ((contrEquiv1 dot_S200x10000_S10000x128_S200x128_1_0_0_1_n_n 10000 rfl rfl).symm k) = ix2 p k := funext fun a => Fin.ext (by
    match a with
    | ⟨0, _⟩ => exact prop_lhs_0 _ _
    | ⟨1, _⟩ => exact (prop_lhs_1 _ _).trans hk)
  have er : dot_S200x10000_S10000x128_S200x128_1_0_0_1_n_n.rhsIdx (ix2 p q) ((contrEquiv1 dot_S200x10000_S10000x128_S200x128_1_0_0_1_n_n 10000 rfl rfl).symm k) = ix2 k q := funext fun a => Fin.ext (by
    match a with
    | ⟨0, _⟩ => exact (prop_rhs_0 _ _).trans hk
    | ⟨1, _⟩ => exact prop_rhs_1 _ _)
  rw [el, er]

/-- The bias row spread over the block's rows reads, in row p, its own entry (0, q). -/
theorem bias_apply (b : Vec Ideal S1x128 .f32) (p : Fin 200) (q : Fin 128) :
    broadcastTo S200x128 (shapeCast S1x128 b shapeCasts_S1x128_S1x128) broadcasts_S1x128_S200x128 (ix2 p q)
      = b (ix2 (0 : Fin 1) q) := by
  rw [shapeCast_self]
  exact broadcastTo_apply b broadcasts_S1x128_S200x128 (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- The output store's value at entry (p, q) of the block. -/
theorem block_apply (sL sR : Vec Ideal S10000x128 .f32) (a1 a2 : Vec Ideal S200x10000 .f32) (b : Vec Ideal S1x128 .f32)
    (p : Fin 200) (q : Fin 128) :
    k0_pay2 (F := Ideal) sL sR a1 a2 b (ix2 p q)
      = (∑ k : Fin 10000, a1 (ix2 p k) * sL (ix2 k q) + ∑ k : Fin 10000, a2 (ix2 p k) * sR (ix2 k q)) + b (ix2 (0 : Fin 1) q) := by
  unfold k0_pay2
  exact congrArg₂ (· + ·) (congrArg₂ (· + ·) (prop_matmul_apply a1 sL p q) (prop_matmul_apply a2 sR p q)) (bias_apply b p q)

end Cert.KernelIdeal.Payload

end
-- ==== Proof.Result.lean ====
/-
  The kernel's result array is the specification's output.

  Every grid point t writes back, into rows 200·t … 200·t + 199 of the result, the block
      (a₁blk · S_left + a₂blk · S_right) + bias
  where S is the support matrix x · [w₁ | w₂] held in the scratch. Entry (k, q) of S_left is (x·w₁)[k, q] and of
  S_right is (x·w₂)[k, q], because columns 0 … 127 of the joined weight are w₁ and columns 128 … 255 are w₂. Entry
  (p, q) of point t's block is therefore the specification at row 200·t + p, column q: the block IS the window's view of
  the specified output. The 50 blocks tile the 10000 rows (row r lies in block r / 200), so after the run the result
  array is the specified output everywhere.
-/
import proofs.«116179_g72980084294335_cont_9to1_m_814_5_alg».proof.Proof.Reads
import proofs.«116179_g72980084294335_cont_9to1_m_814_5_alg».proof.Proof.Payload
import proofs.«116179_g72980084294335_cont_9to1_m_814_5_alg».proof.Proof.Spec
import proofs.«116179_g72980084294335_cont_9to1_m_814_5_alg».proof.Proof.Gen.KernelIdeal.Value

set_option maxRecDepth 16384

noncomputable section

open Idealize.ShloMosaic Idealize.ShloMosaic.TcCoe Idealize.SL.Sem
open Idealize.ShloMosaic.Pipeline (Dat)

namespace Cert.KernelIdeal.Result

open Cert.KernelIdeal Cert.KernelIdeal.Gen Cert.KernelIdeal.Pieces Cert.KernelIdeal.Carried Cert.KernelIdeal.Reads
  Cert.KernelIdeal.Payload Idealize.ShloMosaic.ValueIdx

variable (m : (ℓ : Loc nD τ sig) → Buf (Elt Ideal) ℓ) (ρ : Dev nD → PrngReg)

/-- The specified output at the launched arguments, as contents of the result array. -/
abbrev spec (c : Dev nD) : Buf (Elt Ideal) ((c : Thread nD τ).loc main_v2) :=
  Cert.GraphConv.out (xarr m c) (a1arr m c) (a2arr m c) (w1arr m c) (w2arr m c) (barr m c)

/-- The left half of the support matrix is x·w₁. -/
theorem sup_left (c : Dev nD) (k : Fin 10000) (q : Fin 128) :
    View.ld (sup m c) rLeft (ix2 k q) = Cert.GraphConv.support (xarr m c) (w1arr m c) k q := by
  have e : rLeft.idx (ix2 k q) = (ix2 k (⟨q.val, by have := q.isLt; omega⟩ : Fin 256) : S10000x256.Idx) := by
    funext a; apply Fin.ext
    match a with
    | ⟨0, _⟩ => show 0 + 1 * k.val = k.val; omega
    | ⟨1, _⟩ => show 0 + 1 * q.val = q.val; omega
  show sup m c (rLeft.idx (ix2 k q)) = _
  rw [e]
  refine (support_apply (xblk m c) (wblk m c) k _).trans ?_
  unfold Cert.GraphConv.support
  exact Finset.sum_congr rfl fun l _ => by rw [xblk_apply, wblk_left]

/-- The right half of the support matrix is x·w₂. -/
theorem sup_right (c : Dev nD) (k : Fin 10000) (q : Fin 128) :
    View.ld (sup m c) rRight (ix2 k q) = Cert.GraphConv.support (xarr m c) (w2arr m c) k q := by
  have e : rRight.idx (ix2 k q) = (ix2 k (⟨128 + q.val, by have := q.isLt; omega⟩ : Fin 256) : S10000x256.Idx) := by
    funext a; apply Fin.ext
    match a with
    | ⟨0, _⟩ => show 0 + 1 * k.val = k.val; omega
    | ⟨1, _⟩ => show 128 + 1 * q.val = 128 + q.val; omega
  show sup m c (rRight.idx (ix2 k q)) = _
  rw [e]
  refine (support_apply (xblk m c) (wblk m c) k _).trans ?_
  unfold Cert.GraphConv.support
  exact Finset.sum_congr rfl fun l _ => by rw [xblk_apply, wblk_right]

/-- Entry (p, q) of what point `t` leaves in the output's staging buffer is the specification at row 200·t + p. -/
theorem block_entry (c : Dev nD) (t : Fin cfg0.N) (p : Fin 200) (q : Fin 128) :
    blockOf (sup m c) (a1blk m c t) (a2blk m c t) (bblk m c t) (ix2 p q)
      = Cert.GraphConv.outAt (xarr m c) (a1arr m c) (a2arr m c) (w1arr m c) (w2arr m c) (barr m c) (rowOf t p) q := by
  refine (block_apply (View.ld (sup m c) rLeft) (View.ld (sup m c) rRight) (a1blk m c t) (a2blk m c t) (bblk m c t) p q).trans ?_
  unfold Cert.GraphConv.outAt Cert.GraphConv.propagate
  refine congrArg₂ (· + ·) (congrArg₂ (· + ·) (Finset.sum_congr rfl fun k _ => ?_) (Finset.sum_congr rfl fun k _ => ?_))
    (bblk_apply m c t q)
  · rw [a1blk_apply, sup_left]
  · rw [a2blk_apply, sup_right]

/-- What point `t` writes back is its block of the specified output. -/
theorem flushed_eq (c : Dev nD) (t : Fin cfg0.N) :
    (dats m 0 c).flushed 5 t = ((cfg0.win 5).blk t).view.read (Elt Ideal) (spec m c) := by
  rw [Value.flushed5, block_eq]
  funext j
  obtain ⟨p, q, rfl⟩ : ∃ (p : Fin 200) (q : Fin 128), j = ix2 p q := ⟨j 0, j 1, eq_ix2 j⟩
  show blockOf (sup m c) (a1blk m c t) (a2blk m c t) (bblk m c t) (ix2 p q)
    = spec m c (((cfg0.win 5).blk t).view.emb (ix2 p q))
  rw [out_emb]
  exact block_entry m c t p q

/-- An index of the result is in point `t`'s block iff its row is among the block's 200 rows (its column is any). -/
theorem mem_blk (t : Fin cfg0.N) (i : S10000x128.Idx) :
    i ∈ ((cfg0.win 5).blk t).view.set ↔ ∀ a : Fin 2, win0_5.index t a * S200x128.size a ≤ (i a).val ∧ (i a).val < win0_5.index t a * S200x128.size a + S200x128.size a := by
  show i ∈ ((View.whole main_v2).slice (win0_5.rect t)).set ↔ _
  rw [View.set_slice_whole, Rect.mem_set_unit]
  exact Iff.rfl

/-- The blocks tile the result: row r lies in the block of point r / 200. -/
theorem cover (i : S10000x128.Idx) :
    ∃ t : Fin cfg0.N, (cfg0.win 5).flush t = true ∧ i ∈ ((cfg0.win 5).blk t).view.set := by
  have hN : cfg0.N = 50 := N_0
  have hi0 : (i 0).val < 10000 := (i 0).isLt
  have hi1 : (i 1).val < 128 := (i 1).isLt
  let t : Fin cfg0.N := ⟨(i 0).val / 200, by omega⟩
  obtain ⟨-, -, -, -, -, -, -, -, -, -, e0, e1⟩ := idx_facts t
  have ht : t.val = (i 0).val / 200 := rfl
  refine ⟨t, flush0_5 t, ?_⟩
  rw [mem_blk]
  intro a
  match a with
  | ⟨0, _⟩ => show win0_5.index t (0 : Fin 2) * 200 ≤ (i 0).val ∧ (i 0).val < win0_5.index t (0 : Fin 2) * 200 + 200; omega
  | ⟨1, _⟩ => show win0_5.index t (1 : Fin 2) * 128 ≤ (i 1).val ∧ (i 1).val < win0_5.index t (1 : Fin 2) * 128 + 128; omega

/-- After the run the result array holds the specified output. -/
theorem final (c : Dev nD) : (dats m 0 c).arrAt 5 cfg0.N = spec m c :=
  (dats m 0 c).arrAt_eq_of_cover 5 (spec m c) (fun t _ => flushed_eq m c t) cover

/-- The run, read: the result array at the specified output of the launched arguments, the arguments unchanged. -/
theorem run : θ_run defs (onTc (τ := τ) (main (F := Ideal))) ⟨m, fun _ => 0, ρ⟩ fun r => ∀ c : Dev nD,
      r.2.mem ((c : Thread nD τ).loc main_v2) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Result

end
-- ==== Proof.lean ====
/-
  Two-adjacency graph convolution: out = a₁ · (x · w₁) + a₂ · (x · w₂) + b, with x : [10000, 128], a₁, a₂ :
  [10000, 10000], w₁, w₂ : [128, 128], b : [128].

  The kernel joins the two weights side by side, computes the support matrix S = x · [w₁ | w₂] once, at the first of
  its 50 grid points, into a scratch buffer, and at every point multiplies its 200 rows of a₁ by the left half of S,
  its 200 rows of a₂ by the right half, adds the two products and then the bias row. The reference forms x · w₁ and
  x · w₂ separately, multiplies by the whole adjacencies, adds the two products and then the bias.

  Over the extended reals a matrix product is the plain sum over its contracted index, so both programs compute, at
  every entry (i, j),   (∑ₖ a₁[i,k] · ∑ₗ x[k,l] · w₁[l,j]  +  ∑ₖ a₂[i,k] · ∑ₗ x[k,l] · w₂[l,j])  +  b[j],
  with the same grouping of the two additions: columns 0 … 127 of the joined weight are w₁ and columns 128 … 255 are w₂.
  No law of the extended reals is needed beyond that, so the finiteness of the inputs is never used.

  The modules: Spec (the formula), RefIsSpec (the reference computes it), Pieces (what one run of the body leaves, as
  values of what it loaded), Payload (those values at an entry), Carried (the scratch holds S after every point),
  Reads (the loaded blocks as entries of the arguments), Result (the kernel's result array is the formula).
-/
import proofs.«116179_g72980084294335_cont_9to1_m_814_5_alg».proof.Defs
import proofs.«116179_g72980084294335_cont_9to1_m_814_5_alg».proof.Proof.Gen.Kernel
import proofs.«116179_g72980084294335_cont_9to1_m_814_5_alg».proof.Proof.Gen.Kernel.Skeleton
import proofs.«116179_g72980084294335_cont_9to1_m_814_5_alg».proof.Proof.Gen.Kernel.Launch
import proofs.«116179_g72980084294335_cont_9to1_m_814_5_alg».proof.Proof.Gen.Kernel.Points
import proofs.«116179_g72980084294335_cont_9to1_m_814_5_alg».proof.Proof.Gen.Kernel.Frame
import proofs.«116179_g72980084294335_cont_9to1_m_814_5_alg».proof.Proof.Gen.KernelIdeal
import proofs.«116179_g72980084294335_cont_9to1_m_814_5_alg».proof.Proof.Gen.KernelIdeal.Skeleton
import proofs.«116179_g72980084294335_cont_9to1_m_814_5_alg».proof.Proof.Gen.KernelIdeal.Launch
import proofs.«116179_g72980084294335_cont_9to1_m_814_5_alg».proof.Proof.Gen.KernelIdeal.Points
import proofs.«116179_g72980084294335_cont_9to1_m_814_5_alg».proof.Proof.Gen.KernelIdeal.Frame
import proofs.«116179_g72980084294335_cont_9to1_m_814_5_alg».proof.Proof.Gen.ReferenceIdeal
import proofs.«116179_g72980084294335_cont_9to1_m_814_5_alg».proof.Proof.Gen.Pre_finite_inputs
import proofs.«116179_g72980084294335_cont_9to1_m_814_5_alg».proof.Proof.Gen.KernelIdeal.Value
import proofs.«116179_g72980084294335_cont_9to1_m_814_5_alg».proof.Proof.Gen.ReferenceIdeal.Run
import proofs.«116179_g72980084294335_cont_9to1_m_814_5_alg».proof.Proof.Gen.ReferenceIdeal.Read
import proofs.«116179_g72980084294335_cont_9to1_m_814_5_alg».proof.Proof.RefIsSpec
import proofs.«116179_g72980084294335_cont_9to1_m_814_5_alg».proof.Proof.Result
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array ends at the formula of its arguments, and the reference's at
    its eight operations' term of the same arguments, which is the same formula. -/
theorem algebraic : Cert.algebraic_KernelIdeal_ReferenceIdeal := by
  intro m ρ m' ρ' _ hagree
  refine ⟨fun c => Cert.KernelIdeal.Result.spec m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v7_eq _ _ _ _ _ _).trans (Cert.GraphConv.Reference.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
